-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S11008x4096 : Shape := ⟨2, ![11008, 4096]⟩
abbrev S11008x32 : Shape := ⟨2, ![11008, 32]⟩
abbrev S11008 : Shape := ⟨1, ![11008]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S64x4096 .f32) (main_arg1 : FVec F S11008x4096 .f32) (main_arg2 : FVec F S11008x32 .f32) (main_arg3 : FVec F S11008 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x32 .f32 := Host.absf main_arg2
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S11008 .f32 := Host.absf main_arg3
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S64x4096 : Shape := ⟨2, ![64, 4096]⟩
abbrev S11008x4096 : Shape := ⟨2, ![11008, 4096]⟩
abbrev S11008x32 : Shape := ⟨2, ![11008, 32]⟩
abbrev S11008 : Shape := ⟨1, ![11008]⟩
abbrev S1x11008 : Shape := ⟨2, ![1, 11008]⟩
abbrev S64x11008 : Shape := ⟨2, ![64, 11008]⟩
abbrev S256x4096 : Shape := ⟨2, ![256, 4096]⟩
abbrev S256x32 : Shape := ⟨2, ![256, 32]⟩
abbrev S1x256 : Shape := ⟨2, ![1, 256]⟩
abbrev S64x256 : Shape := ⟨2, ![64, 256]⟩
abbrev S256x32x128 : Shape := ⟨3, ![256, 32, 128]⟩
abbrev S256x32x1 : Shape := ⟨3, ![256, 32, 1]⟩

abbrev nBuf : Space → Nat
  | .hbm => 6
  | .vmem => 9
  | .smem => 0
  | _ => 0

abbrev bufTy : (tb : Table) → Fin (tcTables nBuf tb) → BufTy
  | .hbm, ⟨0, _⟩ => ⟨S64x4096, .f32⟩
  | .hbm, ⟨1, _⟩ => ⟨S11008x4096, .f32⟩
  | .hbm, ⟨2, _⟩ => ⟨S11008x32, .f32⟩
  | .hbm, ⟨3, _⟩ => ⟨S11008, .f32⟩
  | .hbm, ⟨4, _⟩ => ⟨S1x11008, .f32⟩
  | .hbm, ⟨5, _⟩ => ⟨S64x11008, .f32⟩
  | .local _ .vmem, ⟨0, _⟩ => ⟨S64x4096, .f32⟩
  | .local _ .vmem, ⟨1, _⟩ => ⟨S256x4096, .f32⟩
  | .local _ .vmem, ⟨2, _⟩ => ⟨S256x4096, .f32⟩
  | .local _ .vmem, ⟨3, _⟩ => ⟨S256x32, .f32⟩
  | .local _ .vmem, ⟨4, _⟩ => ⟨S256x32, .f32⟩
  | .local _ .vmem, ⟨5, _⟩ => ⟨S1x256, .f32⟩
  | .local _ .vmem, ⟨6, _⟩ => ⟨S1x256, .f32⟩
  | .local _ .vmem, ⟨7, _⟩ => ⟨S64x256, .f32⟩
  | .local _ .vmem, ⟨8, _⟩ => ⟨S64x256, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S11008_S1x11008 : S11008.ShapeCasts S1x11008
  inb_S64x4096_S64x4096_0_0 : ∀ a, (![0, 0] : Fin 2 → Nat) a + S64x4096.size a ≤ S64x4096.size a
  h_S64x4096 : 0 < S64x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  shapeCasts_S256x4096_S256x32x128 : S256x4096.ShapeCasts S256x32x128
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  dot_S64x4096_S256x4096_S64x256_1_1_0_0_n_n_wf : DotDims.WF S64x4096 S256x4096 S64x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .f32 = 32 ∨ (Rect.block (s := S11008x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x11008.size a
  hwx0_4 : ∀ i : grid0.Coords, EltTy.bits .f32 = 32 ∨ (Rect.block (s := S64x11008) S64x256.size (cc0_transform_4 i) (hinb0_4 i)).WholeWords (EltTy.packing .f32)

variable [Facts₀]

def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf

abbrev win0_0 : Pipeline.Window sig grid0 :=
  Pipeline.Window.ofSpec (Memref.whole main_arg0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x4096 : Shape := ⟨2, ![64, 4096]⟩
abbrev S11008x4096 : Shape := ⟨2, ![11008, 4096]⟩
abbrev S11008x32 : Shape := ⟨2, ![11008, 32]⟩
abbrev S11008 : Shape := ⟨1, ![11008]⟩
abbrev S11008x32x128 : Shape := ⟨3, ![11008, 32, 128]⟩
abbrev S11008x32x1 : Shape := ⟨3, ![11008, 32, 1]⟩
abbrev S64x11008 : Shape := ⟨2, ![64, 11008]⟩
abbrev S1x11008 : Shape := ⟨2, ![1, 11008]⟩

abbrev nBuf : Space → Nat
  | .hbm => 13
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S11008x4096, .f32⟩
  | .hbm, ⟨2, _⟩ => ⟨S11008x32, .f32⟩
  | .hbm, ⟨3, _⟩ => ⟨S11008, .f32⟩
  | .hbm, ⟨4, _⟩ => ⟨S11008x32x128, .f32⟩
  | .hbm, ⟨5, _⟩ => ⟨S11008x32x1, .f32⟩
  | .hbm, ⟨6, _⟩ => ⟨S11008x32x128, .f32⟩
  | .hbm, ⟨7, _⟩ => ⟨S11008x32x128, .f32⟩
  | .hbm, ⟨8, _⟩ => ⟨S11008x4096, .f32⟩
  | .hbm, ⟨9, _⟩ => ⟨S64x11008, .f32⟩
  | .hbm, ⟨10, _⟩ => ⟨S1x11008, .f32⟩
  | .hbm, ⟨11, _⟩ => ⟨S64x11008, .f32⟩
  | .hbm, ⟨12, _⟩ => ⟨S64x11008, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S11008_S1x11008_1 : S11008.BroadcastsInDim S1x11008 (![1] : Fin 1 → Fin S1x11008.rank)
  bcast_S1x11008_S64x11008_0_1 : S1x11008.BroadcastsInDim S64x11008 (![0, 1] : Fin 2 → Fin S64x11008.rank)
  dot_S64x4096_S11008x4096_S64x11008_1_1_0_0_n_n_wf : DotDims.WF S64x4096 S11008x4096 S64x11008 [1] [1] [0] [0] [] []

variable [Facts₀]

def dot_S64x4096_S11008x4096_S64x11008_1_1_0_0_n_n : DotDims S64x4096 S11008x4096 S64x11008 where
  lhsContracting := [1]
  rhsContracting := [1]
  lhsNonContracting := [0]
  rhsNonContracting := [0]
  lhsBatch := []
  rhsBatch := []
  wf := dot_S64x4096_S11008x4096_S64x11008_1_1_0_0_n_n_wf

class Facts : Prop extends Facts₀ where

variable [Facts]
-- ==== Proof.Spec.lean ====
/-
  What both programs compute, as ONE function of the four argument arrays, index by index on the extended reals:
  a linear layer whose weight is stored group-quantized. Output row `r`, output feature `o`:

      out[r, o] = (Σ_{k < 4096} x[r, k] · (w[o, k] · s[o, k / 128])) + b[o]

  Each run of 128 consecutive in-features of one output row shares one scale `s[o, k / 128]` (32 groups per row);
  the dequantized weight is never rounded here, a change of float format being the identity on the extended reals.
-/
import Idealize.ShloMosaic.PureOps.Ideal
import Idealize.ShloMosaic.Lib.ValueIdx

noncomputable section

open scoped BigOperators

namespace Cert.DequantLinear

open Idealize.ShloMosaic Idealize.ShloMosaic.ValueIdx

/-- In-feature `k` lies in scale group `k / 128`. -/
def grp (k : Fin 4096) : Fin 32 := ⟨k.val / 128, by have := k.isLt; omega⟩

theorem grp_val (k : Fin 4096) : (grp k).val = k.val / 128 := rfl

/-- The dequantized linear layer: the sum over the in-features of the activation times the scaled weight, plus the bias. -/
def deqLinear (x : (⟨2, ![64, 4096]⟩ : Shape).Idx → EReal) (w : (⟨2, ![11008, 4096]⟩ : Shape).Idx → EReal)
    (s : (⟨2, ![11008, 32]⟩ : Shape).Idx → EReal) (b : (⟨1, ![11008]⟩ : Shape).Idx → EReal) :
    (⟨2, ![64, 11008]⟩ : Shape).Idx → EReal :=
  fun i => (∑ k : Fin 4096, x (ix2 (i 0) k) * (w (ix2 (i 1) k) * s (ix2 (i 1) (grp k)))) + b (ix1 (i 1))

theorem deqLinear_apply (x : (⟨2, ![64, 4096]⟩ : Shape).Idx → EReal) (w : (⟨2, ![11008, 4096]⟩ : Shape).Idx → EReal)
    (s : (⟨2, ![11008, 32]⟩ : Shape).Idx → EReal) (b : (⟨1, ![11008]⟩ : Shape).Idx → EReal) (r : Fin 64) (o : Fin 11008) :
    deqLinear x w s b (ix2 r o)
      = (∑ k : Fin 4096, x (ix2 r k) * (w (ix2 o k) * s (ix2 o (grp k)))) + b (ix1 o) := rfl

end Cert.DequantLinear

end
-- ==== Proof.RefValue.lean ====
/-
  The reference side. The jnp reference reshapes the weight to [11008, 32, 128], multiplies by the scale broadcast
  along the last axis, reshapes back to [11008, 4096], contracts with the activations over the in-features and adds
  the bias broadcast over the rows. Read at output index (r, o) this is the dequantized linear layer of Spec.lean:
  the two reshapes cancel at the row-major position of (o, k) — (o, k) ↦ (o, k / 128, k % 128) ↦ (o, k) — and the
  broadcast scale is read at (o, k / 128).
-/
import proofs.«152248_j62861141344487_1_alg».proof.Proof.Gen.ReferenceIdeal.Read
import proofs.«152248_j62861141344487_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.DequantLinear

/-- Through both reshapes, index (o, k) of the scaled weight reads the weight at (o, k). -/
theorem weight_idx (o : Fin 11008) (k : Fin 4096) : idx_main_v0 (idx_main_v4 (ix2 o k)) = ix2 o k := by
  have ho : o.val < 11008 := o.isLt
  have hk : k.val < 4096 := k.isLt
  funext a; apply Fin.ext
  match a with
  | ⟨0, _⟩ =>
    show ((((o.val * 4096 + k.val) / 4096) * 32 + (o.val * 4096 + k.val) / 128 % 32) * 128 + (o.val * 4096 + k.val) % 128) / 4096 = o.val
    omega
  | ⟨1, _⟩ =>
    show ((((o.val * 4096 + k.val) / 4096) * 32 + (o.val * 4096 + k.val) / 128 % 32) * 128 + (o.val * 4096 + k.val) % 128) % 4096 = k.val
    omega

/-- Through the reshape and the two broadcasts, index (o, k) of the scaled weight reads the scale at (o, k / 128). -/
theorem scale_idx (o : Fin 11008) (k : Fin 4096) : idx_main_v1 (idx_main_v2 (idx_main_v4 (ix2 o k))) = ix2 o (grp k) := by
  have ho : o.val < 11008 := o.isLt
  have hk : k.val < 4096 := k.isLt
  funext a; apply Fin.ext
  match a with
  | ⟨0, _⟩ =>
    show (o.val * 4096 + k.val) / 4096 = o.val
    omega
  | ⟨1, _⟩ =>
    show (o.val * 4096 + k.val) / 128 % 32 = k.val / 128
    omega

/-- The dequantized weight at (o, k): the weight there times its group's scale. -/
theorem deq_weight_apply (x1 : (⟨S11008x4096, .f32⟩ : BufTy).Contents (Elt Ideal)) (x2 : (⟨S11008x32, .f32⟩ : BufTy).Contents (Elt Ideal))
    (o : Fin 11008) (k : Fin 4096) :
    val_main_v4 (F := Ideal) x1 x2 (ix2 o k) = x1 (ix2 o k) * x2 (ix2 o (grp k)) := by
  rw [val_main_v4_apply, val_main_v3_apply, val_main_v0_apply, val_main_v2_apply, val_main_v1_apply, weight_idx, scale_idx]
  rfl

/-- The reference's result is the dequantized linear layer of its four arguments. -/
theorem result_eq (x0 : (⟨S64x4096, .f32⟩ : BufTy).Contents (Elt Ideal)) (x1 : (⟨S11008x4096, .f32⟩ : BufTy).Contents (Elt Ideal))
    (x2 : (⟨S11008x32, .f32⟩ : BufTy).Contents (Elt Ideal)) (x3 : (⟨S11008, .f32⟩ : BufTy).Contents (Elt Ideal)) :
    val_main_v8 (F := Ideal) x0 x1 x2 x3 = deqLinear x0 x1 x2 x3 := by
  funext i
  obtain ⟨r, o, rfl⟩ : ∃ (r : Fin 64) (o : Fin 11008), i = ix2 r o := ⟨i 0, i 1, eq_ix2 i⟩
  have el : ∀ k : Fin 4096, lidx_main_v5 (ix2 r o) k = ix2 r k := fun k =>
    funext fun a => Fin.ext (by match a with | ⟨0, _⟩ => rfl | ⟨1, _⟩ => rfl)
  have er : ∀ k : Fin 4096, ridx_main_v5 (ix2 r o) k = ix2 o k := fun k =>
    funext fun a => Fin.ext (by match a with | ⟨0, _⟩ => rfl | ⟨1, _⟩ => rfl)
  have eb : idx_main_v6 (idx_main_v7 (ix2 r o)) = ix1 o :=
    funext fun a => Fin.ext (by match a with | ⟨0, _⟩ => rfl)
  rw [val_main_v8_apply, val_main_v5_apply, val_main_v7_apply, val_main_v6_apply, deqLinear_apply, eb]
  simp only [el, er, deq_weight_apply]
  rfl

end Cert.ReferenceIdeal.RefValue

end
-- ==== Proof.Payload.lean ====
/-
  The kernel body's arithmetic at one element of its output block. At a grid point the body holds the whole
  activation array `x` ([64, 4096]), a block of 256 weight rows `w` ([256, 4096]), those rows' scales `s` ([256, 32])
  and their biases `b` ([1, 256]). It views the weight block as [256, 32, 128], multiplies by the scales broadcast
  along the last axis, views the product as [256, 4096] again, contracts it with `x` over the in-features into a zero
  accumulator, and adds the bias row broadcast over the 64 rows. On the extended reals the two changes of float
  format are the identity, so at row `p`, column `q` of the block the result is

      (Σ_{k < 4096} x[p, k] · (w[q, k] · s[q, k / 128])) + b[0, q].
-/
import proofs.«152248_j62861141344487_1_alg».proof.Proof.Gen.KernelIdeal.Skeleton
import proofs.«152248_j62861141344487_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen
open Idealize.ShloMosaic Idealize.ShloMosaic.ValueIdx Cert.DequantLinear

/-- The scaled weight block at (q, k): viewed [256, 32, 128], (q, k) sits at (q, k / 128, k % 128), where the
    weight is read back at (q, k) and the broadcast scale at (q, k / 128). -/
theorem scaled_block_apply (v2 : FVec Ideal S256x4096 .f32) (v3 : FVec Ideal S256x32 .f32)
    (h1 : S256x4096.ShapeCasts S256x32x128) (h2 : S256x32.ShapeCasts S256x32x1)
    (h3 : S256x32x1.Broadcasts S256x32x128) (h4 : S256x32x128.ShapeCasts S256x4096) (q : Fin 256) (k : Fin 4096) :
    shapeCast S256x4096 (mulf (shapeCast S256x32x128 v2 h1) (broadcastTo S256x32x128 (shapeCast S256x32x1 v3 h2) h3)) h4 (ix2 q k)
      = v2 (ix2 q k) * v3 (ix2 q (grp k)) := by
  have hq : q.val < 256 := q.isLt
  have hk : k.val < 4096 := k.isLt
  refine (shapeCast_apply _ h4 (ix2 q k) (ix3 q (grp k) (⟨k.val % 128, by omega⟩ : Fin 128)) ?_).trans ?_
  · rw [Shape.rowMajor_val_three, Shape.rowMajor_val_two]
    show (q.val * 32 + k.val / 128) * 128 + k.val % 128 = q.val * 4096 + k.val
    omega
  rw [mulf_apply]
  congr 1
  · refine shapeCast_apply v2 h1 (ix3 q (grp k) (⟨k.val % 128, by omega⟩ : Fin 128)) (ix2 q k) ?_
    rw [Shape.rowMajor_val_three, Shape.rowMajor_val_two]
    show q.val * 4096 + k.val = (q.val * 32 + k.val / 128) * 128 + k.val % 128
    omega
  · refine (broadcastTo_apply _ h3 (ix3 q (grp k) (⟨k.val % 128, by omega⟩ : Fin 128)) (ix3 q (grp k) (0 : Fin 1)) ?_).trans ?_
    · intro a
      match a with
      | ⟨0, _⟩ => show q.val = if (256 : Nat) = 1 then 0 else q.val; rw [if_neg (by decide)]
      | ⟨1, _⟩ => show k.val / 128 = if (32 : Nat) = 1 then 0 else k.val / 128; rw [if_neg (by decide)]
      | ⟨2, _⟩ => show 0 = if (1 : Nat) = 1 then 0 else k.val % 128; rw [if_pos rfl]
    · refine shapeCast_apply v3 h2 (ix3 q (grp k) (0 : Fin 1)) (ix2 q (grp k)) ?_
      rw [Shape.rowMajor_val_three, Shape.rowMajor_val_two]
      show q.val * 32 + k.val / 128 = (q.val * 32 + k.val / 128) * 1 + 0
      omega

/-! The contraction's operand indices at output index (p, q) and contraction coordinate k: (p, k) and (q, k). -/

theorem lhs_axis0 (i : S64x256.Idx) (c : dot_S64x4096_S256x4096_S64x256_1_1_0_0_n_n.contr.Idx) :
    (dot_S64x4096_S256x4096_S64x256_1_1_0_0_n_n.lhsIdx i c 0).val = (i 0).val := by
  unfold DotDims.lhsIdx
  rw [dif_neg (show ¬(0 : Fin S64x4096.rank) ∈ dot_S64x4096_S256x4096_S64x256_1_1_0_0_n_n.lhsBatch by decide), dif_pos (show (0 : Fin S64x4096.rank) ∈ dot_S64x4096_S256x4096_S64x256_1_1_0_0_n_n.lhsNonContracting by decide)]
  rfl
theorem lhs_axis1 (i : S64x256.Idx) (c : dot_S64x4096_S256x4096_S64x256_1_1_0_0_n_n.contr.Idx) :
    (dot_S64x4096_S256x4096_S64x256_1_1_0_0_n_n.lhsIdx i c 1).val = (c ⟨0, by decide⟩).val :=
  dot_S64x4096_S256x4096_S64x256_1_1_0_0_n_n.lhsIdx_val_of_single rfl i c
theorem rhs_axis0 (i : S64x256.Idx) (c : dot_S64x4096_S256x4096_S64x256_1_1_0_0_n_n.contr.Idx) :
    (dot_S64x4096_S256x4096_S64x256_1_1_0_0_n_n.rhsIdx i c 0).val = (i 1).val := by
  unfold DotDims.rhsIdx
  rw [dif_neg (show ¬(0 : Fin S256x4096.rank) ∈ dot_S64x4096_S256x4096_S64x256_1_1_0_0_n_n.rhsBatch by decide), dif_pos (show (0 : Fin S256x4096.rank) ∈ dot_S64x4096_S256x4096_S64x256_1_1_0_0_n_n.rhsNonContracting by decide)]
  rfl
theorem rhs_axis1 (i : S64x256.Idx) (c : dot_S64x4096_S256x4096_S64x256_1_1_0_0_n_n.contr.Idx) :
    (dot_S64x4096_S256x4096_S64x256_1_1_0_0_n_n.rhsIdx i c 1).val = (c ⟨0, by decide⟩).val :=
  dot_S64x4096_S256x4096_S64x256_1_1_0_0_n_n.rhsIdx_val_of_single rfl i c

/-- The matrix product into a zero accumulator at (p, q): the sum over the in-features of the operands' products. -/
theorem contraction_apply (l : FVec Ideal S64x4096 .bf16) (r : FVec Ideal S256x4096 .bf16) (p : Fin 64) (q : Fin 256) :
    matmul dot_S64x4096_S256x4096_S64x256_1_1_0_0_n_n none l r (constant S64x256 .f32 0x00000000#32) (ix2 p q)
      = ∑ k : Fin 4096, l (ix2 p k) * r (ix2 q k) := by
  simp only [matmul]
  rw [Ideal.matmul_constant_zero_apply, ← Equiv.sum_comp (contrEquiv1 dot_S64x4096_S256x4096_S64x256_1_1_0_0_n_n 4096 rfl rfl).symm]
  refine Finset.sum_congr rfl fun k _ => ?_
  have hk := contrEquiv1_symm_val dot_S64x4096_S256x4096_S64x256_1_1_0_0_n_n 4096 rfl rfl k
  have el : dot_S64x4096_S256x4096_S64x256_1_1_0_0_n_n.lhsIdx (ix2 p q) ((contrEquiv1 dot_S64x4096_S256x4096_S64x256_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S64x4096_S256x4096_S64x256_1_1_0_0_n_n.rhsIdx (ix2 p q) ((contrEquiv1 dot_S64x4096_S256x4096_S64x256_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-- The body's stored value at (p, q) of the output block. -/
theorem payload_apply (v0 : Vec Ideal S64x4096 .f32) (v2 : Vec Ideal S256x4096 .f32) (v3 : Vec Ideal S256x32 .f32)
    (v11 : Vec Ideal S1x256 .f32) (p : Fin 64) (q : Fin 256) :
    k0_pay1 (F := Ideal) v0 v2 v3 v11 (ix2 p q)
      = (∑ k : Fin 4096, v0 (ix2 p k) * (v2 (ix2 q k) * v3 (ix2 q (grp k)))) + v11 (ix2 (0 : Fin 1) q) := by
  unfold k0_pay1
  rw [addf_apply, contraction_apply, broadcastTo_1b_ab_apply, shapeCast_self]
  congr 1
  refine Finset.sum_congr rfl fun k _ => ?_
  rw [truncf_apply, truncf_apply, scaled_block_apply]

end Cert.KernelIdeal.Body

end
-- ==== Proof.KerValue.lean ====
/-
  From blocks to the array. The grid has 43 points; point `t` holds the whole activation array, weight rows
  256·t … 256·t + 255 with their scales and biases, and writes back columns 256·t … 256·t + 255 of the [64, 11008]
  output. What it writes back is that block of columns of the dequantized linear layer of the argument arrays
  (Spec.lean), read off the body's arithmetic (Payload.lean) with each input block read where the output block's
  columns say; the 43 blocks of columns tile the output, so after the run the output array IS the dequantized
  linear layer of the arguments. The bias reaches the region through a host reshape [11008] → [1, 11008], read back
  at (0, o) as the bias at o.
-/
import proofs.«152248_j62861141344487_1_alg».proof.Proof.Gen.KernelIdeal.Value
import proofs.«152248_j62861141344487_1_alg».proof.Proof.Payload
import Idealize.ShloMosaic.Lib.StableHlo.Run

noncomputable section

open scoped BigOperators

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx Cert.DequantLinear

variable (m : (ℓ : Loc nD τ sig) → Buf (Elt Ideal) ℓ) (ρ : Dev nD → PrngReg)

theorem off_zero : (![0, 0] : Fin 2 → Nat) = fun _ => 0 := funext fun a => by fin_cases a <;> rfl

/-- The printed index maps, decided over the 43 points: the activations' block never moves; the weight's and the
    scale's row block and the bias's column block are the output's column block, which is at most 42. -/
theorem idx_facts : ∀ t : Fin cfg0.N,
    win0_0.index t (0 : Fin 2) = 0 ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) = 0 ∧ win0_4.index t (1 : Fin 2) ≤ 42 :=
  (by decide +kernel : ∀ t : Fin grid0.N, _)

/-- Every block of columns is some point's. -/
theorem idx_onto : ∀ q : Fin 43, ∃ t : Fin cfg0.N, win0_4.index t = ![0, q.val] :=
  (by decide +kernel : ∀ q : Fin 43, ∃ t : Fin grid0.N, win0_4.index t = ![0, q.val])

/-- The output feature under column `q` of point `t`'s block. -/
def col (t : Fin cfg0.N) (q : Fin 256) : Fin 11008 :=
  ⟨win0_4.index t (1 : Fin 2) * 256 + q.val, by have := (idx_facts t).2.2.2.2.2.2.2.2.2; have := q.isLt; omega⟩

theorem col_val (t : Fin cfg0.N) (q : Fin 256) : (col t q).val = win0_4.index t (1 : Fin 2) * 256 + q.val := rfl

/-! ## The input blocks, read where the output block's columns say -/

theorem x_block (c : Dev nD) (t : Fin cfg0.N) (p : Fin 64) (k : Fin 4096) :
    iblk m c 0 t (ix2 p k) = V m c main_arg0 (ix2 p k) := by
  obtain ⟨e0, e1, -⟩ := idx_facts t
  show V m c main_arg0 (((cfg0.win 0).blk t).view.emb (ix2 p k)) = V m c main_arg0 (ix2 p k)
  refine congrArg (V m c main_arg0) (funext fun a => Fin.ext ?_)
  match a with
  | ⟨0, _⟩ => show win0_0.index t (0 : Fin 2) * 64 + 1 * p.val = p.val; omega
  | ⟨1, _⟩ => show win0_0.index t (1 : Fin 2) * 4096 + 1 * k.val = k.val; omega

theorem w_block (c : Dev nD) (t : Fin cfg0.N) (q : Fin 256) (k : Fin 4096) :
    iblk m c 1 t (ix2 q k) = V m c main_arg1 (ix2 (col t q) k) := by
  obtain ⟨-, -, e0, e1, -⟩ := idx_facts t
  show V m c main_arg1 (((cfg0.win 1).blk t).view.emb (ix2 q k)) = V m c main_arg1 (ix2 (col t q) k)
  refine congrArg (V m c main_arg1) (funext fun a => Fin.ext ?_)
  match a with
  | ⟨0, _⟩ => show win0_1.index t (0 : Fin 2) * 256 + 1 * q.val = win0_4.index t (1 : Fin 2) * 256 + q.val; omega
  | ⟨1, _⟩ => show win0_1.index t (1 : Fin 2) * 4096 + 1 * k.val = k.val; omega

theorem s_block (c : Dev nD) (t : Fin cfg0.N) (q : Fin 256) (g : Fin 32) :
    iblk m c 2 t (ix2 q g) = V m c main_arg2 (ix2 (col t q) g) := by
  obtain ⟨-, -, -, -, e0, e1, -⟩ := idx_facts t
  show V m c main_arg2 (((cfg0.win 2).blk t).view.emb (ix2 q g)) = V m c main_arg2 (ix2 (col t q) g)
  refine congrArg (V m c main_arg2) (funext fun a => Fin.ext ?_)
  match a with
  | ⟨0, _⟩ => show win0_2.index t (0 : Fin 2) * 256 + 1 * q.val = win0_4.index t (1 : Fin 2) * 256 + q.val; omega
  | ⟨1, _⟩ => show win0_2.index t (1 : Fin 2) * 32 + 1 * g.val = g.val; omega

theorem b_block (c : Dev nD) (t : Fin cfg0.N) (q : Fin 256) :
    iblk m c 3 t (ix2 (0 : Fin 1) q) = V m c main_v0 (ix2 (0 : Fin 1) (col t q)) := by
  obtain ⟨-, -, -, -, -, -, e0, e1, -⟩ := idx_facts t
  show V m c main_v0 (((cfg0.win 3).blk t).view.emb (ix2 (0 : Fin 1) q)) = V m c main_v0 (ix2 (0 : Fin 1) (col t q))
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 256 + 1 * q.val = win0_4.index t (1 : Fin 2) * 256 + q.val; omega

/-- The bias as the region finds it: the argument reshaped to one row. -/
theorem bias_row (c : Dev nD) :
    (V m c main_v0 : S1x11008.Idx → EReal) = shapeCast S1x11008 (m ((c : Thread nD τ).loc main_arg3)) shapeCasts_S11008_S1x11008 := by
  dsimp only [Gen.V, Gen.hostOps0]; after_results; rfl

theorem bias_apply (c : Dev nD) (o : Fin 11008) :
    V m c main_v0 (ix2 (0 : Fin 1) o) = m ((c : Thread nD τ).loc main_arg3) (ix1 o) := by
  rw [bias_row]
  exact shapeCast_a_1a_apply _ _ (0 : Fin 1) o

/-- Element (p, q) of point `t`'s output block sits at (p, col t q) of the output array. -/
theorem out_emb (t : Fin cfg0.N) (p : Fin 64) (q : Fin 256) :
    ((cfg0.win 4).blk t).view.emb (ix2 p q) = (ix2 p (col t q) : S64x11008.Idx) := by
  obtain ⟨-, -, -, -, -, -, -, -, e0, -⟩ := idx_facts t
  funext a; apply Fin.ext
  match a with
  | ⟨0, _⟩ => show win0_4.index t (0 : Fin 2) * 64 + 1 * p.val = p.val; omega
  | ⟨1, _⟩ => show win0_4.index t (1 : Fin 2) * 256 + 1 * q.val = win0_4.index t (1 : Fin 2) * 256 + q.val; omega

/-! ## What a point writes back -/

/-- Point `t` writes back block `t` of the dequantized linear layer of the arrays as the region finds them. -/
theorem flushed_eq (c : Dev nD) (t : Fin cfg0.N) :
    (dats m 0 c).flushed 4 t = ((cfg0.win 4).blk t).view.read (Elt Ideal)
      (deqLinear (V m c main_arg0) (V m c main_arg1) (V m c main_arg2) (m ((c : Thread nD τ).loc main_arg3))) := by
  rw [Value.flushed4]
  unfold out0_4
  rw [View.canon_unit_zero off_zero]
  simp only [View.ld_unit_zero (S := S64x4096) off_zero, View.ld_unit_zero (S := S256x4096) off_zero,
    View.ld_unit_zero (S := S256x32) off_zero, View.ld_unit_zero (S := S1x256) off_zero]
  funext j
  obtain ⟨p, q, rfl⟩ : ∃ (p : Fin 64) (q : Fin 256), j = ix2 p q := ⟨j 0, j 1, eq_ix2 j⟩
  show k0_pay1 (F := Ideal) (iblk m c 0 t) (iblk m c 1 t) (iblk m c 2 t) (iblk m c 3 t) (ix2 p q)
    = deqLinear (V m c main_arg0) (V m c main_arg1) (V m c main_arg2) (m ((c : Thread nD τ).loc main_arg3))
        (((cfg0.win 4).blk t).view.emb (ix2 p q))
  refine (Body.payload_apply (iblk m c 0 t) (iblk m c 1 t) (iblk m c 2 t) (iblk m c 3 t) p q).trans ?_
  rw [out_emb, deqLinear_apply, b_block, bias_apply]
  congr 1
  refine Finset.sum_congr rfl fun k _ => ?_
  rw [x_block, w_block, s_block]

/-! ## The blocks of columns tile the output -/

theorem mem_blk (t : Fin cfg0.N) (i : S64x11008.Idx) :
    i ∈ ((cfg0.win 4).blk t).view.set ↔ ∀ a : Fin 2, win0_4.index t a * S64x256.size a ≤ (i a).val ∧ (i a).val < win0_4.index t a * S64x256.size a + S64x256.size a := by
  show i ∈ ((View.whole main_v1).slice (win0_4.rect t)).set ↔ _
  rw [View.set_slice_whole, Rect.mem_set_unit]
  exact Iff.rfl

/-- Output column `o` lies in the block of the point whose column block is `o / 256`. -/
theorem cover (i : S64x11008.Idx) :
    ∃ t : Fin cfg0.N, (cfg0.win 4).flush t = true ∧ i ∈ ((cfg0.win 4).blk t).view.set := by
  have hi0 : (i 0).val < 64 := (i 0).isLt
  have hi1 : (i 1).val < 11008 := (i 1).isLt
  obtain ⟨t, ht⟩ := idx_onto ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 256 ≤ (i 1).val ∧ (i 1).val < win0_4.index t (1 : Fin 2) * 256 + 256; omega

/-! ## The output array after the run -/

theorem final (c : Dev nD) :
    (dats m 0 c).arrAt 4 cfg0.N = deqLinear (m ((c : Thread nD τ).loc main_arg0)) (m ((c : Thread nD τ).loc main_arg1))
      (m ((c : Thread nD τ).loc main_arg2)) (m ((c : Thread nD τ).loc main_arg3)) := by
  rw [(dats m 0 c).arrAt_eq_of_cover 4 _ (fun t _ => flushed_eq m c t) cover, V_main_arg0, V_main_arg1, V_main_arg2]

/-- Every weakly fair execution of the kernel's program ends with the output array at the dequantized linear layer of
    the arguments, the arguments unchanged. -/
theorem run : θ_run defs (onTc (τ := τ) (main (F := Ideal))) ⟨m, fun _ => 0, ρ⟩ fun r => ∀ c : Dev nD,
      r.2.mem ((c : Thread nD τ).loc main_v1) = deqLinear (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KerValue

end
-- ==== Proof.lean ====
/-
  A linear layer with a group-quantized weight, computed 256 output features at a time by a pipelined kernel, against
  its jnp reference. On the extended reals both programs compute

      out[r, o] = (Σ_{k < 4096} x[r, k] · (w[o, k] · s[o, k / 128])) + b[o]

  (Proof/Spec.lean): the kernel rounds its matrix-product operands to bf16, which is the identity on the extended
  reals, and accumulates into zero; the reference contracts the whole dequantized weight at once. No algebraic law
  beyond reading both sums at the same indices joins the two sides, so the inputs' finiteness is never used.

  * Proof/RefValue.lean: the reference's result is that function of its arguments.
  * Proof/Payload.lean: the kernel body's arithmetic at one element of its output block.
  * Proof/KerValue.lean: what each grid point writes back, the cover, and the kernel's run with its output named.
  The three frames are the generated frame runs (the reference's is its generated run with the result dropped); the
  kernel's idealization rewrote nothing, so there is nothing to preserve.
-/
import proofs.«152248_j62861141344487_1_alg».proof.Defs
import proofs.«152248_j62861141344487_1_alg».proof.Proof.Gen.Kernel
import proofs.«152248_j62861141344487_1_alg».proof.Proof.Gen.Kernel.Skeleton
import proofs.«152248_j62861141344487_1_alg».proof.Proof.Gen.Kernel.Launch
import proofs.«152248_j62861141344487_1_alg».proof.Proof.Gen.Kernel.Points
import proofs.«152248_j62861141344487_1_alg».proof.Proof.Gen.Kernel.Frame
import proofs.«152248_j62861141344487_1_alg».proof.Proof.Gen.KernelIdeal
import proofs.«152248_j62861141344487_1_alg».proof.Proof.Gen.KernelIdeal.Skeleton
import proofs.«152248_j62861141344487_1_alg».proof.Proof.Gen.KernelIdeal.Launch
import proofs.«152248_j62861141344487_1_alg».proof.Proof.Gen.KernelIdeal.Points
import proofs.«152248_j62861141344487_1_alg».proof.Proof.Gen.KernelIdeal.Frame
import proofs.«152248_j62861141344487_1_alg».proof.Proof.Gen.ReferenceIdeal
import proofs.«152248_j62861141344487_1_alg».proof.Proof.Gen.Pre_finite_inputs
import proofs.«152248_j62861141344487_1_alg».proof.Proof.Gen.KernelIdeal.Value
import proofs.«152248_j62861141344487_1_alg».proof.Proof.Gen.ReferenceIdeal.Run
import proofs.«152248_j62861141344487_1_alg».proof.Proof.Gen.ReferenceIdeal.Read
import proofs.«152248_j62861141344487_1_alg».proof.Proof.Spec
import proofs.«152248_j62861141344487_1_alg».proof.Proof.RefValue
import proofs.«152248_j62861141344487_1_alg».proof.Proof.Payload
import proofs.«152248_j62861141344487_1_alg».proof.Proof.KerValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs, run from memories that agree on the four arguments, end with the output at the dequantized linear
    layer of those arguments. -/
theorem algebraic : Cert.algebraic_KernelIdeal_ReferenceIdeal := by
  intro m ρ m' ρ' _ hagree
  refine ⟨fun c => Cert.DequantLinear.deqLinear (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
